-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x50000x64 : Shape := ⟨3, ![8, 50000, 64]⟩
abbrev S3x64x64 : Shape := ⟨3, ![3, 64, 64]⟩
abbrev S64 : Shape := ⟨1, ![64]⟩
abbrev S2x400000 : Shape := ⟨2, ![2, 400000]⟩
abbrev S_ : Shape := ⟨0, ![]⟩

class Facts : Prop where
  bcast_S_S8x50000x64 : S_.BroadcastsInDim S8x50000x64 (![] : Fin 0 → Fin S8x50000x64.rank)
  reducesTo_S8x50000x64_S_d0_1_2 : S8x50000x64.ReducesTo [0, 1, 2] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x50000x64 .f32) (main_arg1 : FVec F S3x64x64 .f32) (main_arg2 : FVec F S64 .f32) (main_arg3 : IVec S2x400000 32) : IVec S_ 1 :=
  let main_v0 : FVec F S8x50000x64 .f32 := Host.absf main_arg0
  let main_cst : FVec F S_ .f32 := constant S_ .f32 0x7F800000#32
  let main_v1 : FVec F S8x50000x64 .f32 := broadcastInDim S8x50000x64 ![] bcast_S_S8x50000x64 main_cst
  let main_v2 : IVec S8x50000x64 1 := cmpf .olt main_v0 main_v1
  let main_c : IVec S_ 1 := constantI S_ 1 1#1
  let main_v3 : IVec S_ 1 := (fun x v => Host.reduce IntOp.andi x v reducesTo_S8x50000x64_S_d0_1_2 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x50000x64 : Shape := ⟨3, ![8, 50000, 64]⟩
abbrev S3x64x64 : Shape := ⟨3, ![3, 64, 64]⟩
abbrev S64 : Shape := ⟨1, ![64]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x8x64 : Shape := ⟨3, ![50000, 8, 64]⟩
abbrev S50000x512 : Shape := ⟨2, ![50000, 512]⟩
abbrev S400000x512 : Shape := ⟨2, ![400000, 512]⟩
abbrev S400000x64 : Shape := ⟨2, ![400000, 64]⟩
abbrev S10000x64 : Shape := ⟨2, ![10000, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 97
  | .vmem => 10
  | .smem => 0
  | _ => 0

abbrev bufTy : (tb : Table) → Fin (tcTables nBuf tb) → BufTy
  | .hbm, ⟨0, _⟩ => ⟨S8x50000x64, .f32⟩
  | .hbm, ⟨1, _⟩ => ⟨S3x64x64, .f32⟩
  | .hbm, ⟨2, _⟩ => ⟨S64, .f32⟩
  | .hbm, ⟨3, _⟩ => ⟨S2x400000, .i32⟩
  | .hbm, ⟨4, _⟩ => ⟨S1x400000, .i32⟩
  | .hbm, ⟨5, _⟩ => ⟨S400000, .i32⟩
  | .hbm, ⟨6, _⟩ => ⟨S1x400000, .i32⟩
  | .hbm, ⟨7, _⟩ => ⟨S400000, .i32⟩
  | .hbm, ⟨8, _⟩ => ⟨S400000, .i1⟩
  | .hbm, ⟨9, _⟩ => ⟨S_, .f32⟩
  | .hbm, ⟨10, _⟩ => ⟨S_, .f32⟩
  | .hbm, ⟨11, _⟩ => ⟨S400000, .f32⟩
  | .hbm, ⟨12, _⟩ => ⟨S400000, .f32⟩
  | .hbm, ⟨13, _⟩ => ⟨S400000, .f32⟩
  | .hbm, ⟨14, _⟩ => ⟨S_, .f32⟩
  | .hbm, ⟨15, _⟩ => ⟨S50000, .f32⟩
  | .hbm, ⟨16, _⟩ => ⟨S400000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000, .f32⟩
  | .hbm, ⟨36, _⟩ => ⟨S400000, .f32⟩
  | .hbm, ⟨37, _⟩ => ⟨S400000, .f32⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S400000x1, .i32⟩
  | .hbm, ⟨46, _⟩ => ⟨S400000, .f32⟩
  | .hbm, ⟨47, _⟩ => ⟨S400000, .f32⟩
  | .hbm, ⟨48, _⟩ => ⟨S50000x8x64, .f32⟩
  | .hbm, ⟨49, _⟩ => ⟨S50000x512, .f32⟩
  | .hbm, ⟨50, _⟩ => ⟨S400000x1, .f32⟩
  | .hbm, ⟨51, _⟩ => ⟨S_, .i32⟩
  | .hbm, ⟨52, _⟩ => ⟨S400000, .i32⟩
  | .hbm, ⟨53, _⟩ => ⟨S400000, .i1⟩
  | .hbm, ⟨54, _⟩ => ⟨S_, .i32⟩
  | .hbm, ⟨55, _⟩ => ⟨S400000, .i32⟩
  | .hbm, ⟨56, _⟩ => ⟨S400000, .i32⟩
  | .hbm, ⟨57, _⟩ => ⟨S400000, .i32⟩
  | .hbm, ⟨58, _⟩ => ⟨S400000x1, .i32⟩
  | .hbm, ⟨59, _⟩ => ⟨S400000x512, .f32⟩
  | .hbm, ⟨60, _⟩ => ⟨S400000x512, .f32⟩
  | .hbm, ⟨61, _⟩ => ⟨S400000x512, .f32⟩
  | .hbm, ⟨62, _⟩ => ⟨S_, .f32⟩
  | .hbm, ⟨63, _⟩ => ⟨S50000x512, .f32⟩
  | .hbm, ⟨64, _⟩ => ⟨S400000x1, .i32⟩
  | .hbm, ⟨65, _⟩ => ⟨S50000x512, .f32⟩
  | .hbm, ⟨66, _⟩ => ⟨S50000x8x64, .f32⟩
  | .hbm, ⟨67, _⟩ => ⟨S8x50000x64, .f32⟩
  | .hbm, ⟨68, _⟩ => ⟨S50000x8x64, .f32⟩
  | .hbm, ⟨69, _⟩ => ⟨S50000x512, .f32⟩
  | .hbm, ⟨70, _⟩ => ⟨S400000x1, .f32⟩
  | .hbm, ⟨71, _⟩ => ⟨S_, .i32⟩
  | .hbm, ⟨72, _⟩ => ⟨S400000, .i32⟩
  | .hbm, ⟨73, _⟩ => ⟨S400000, .i1⟩
  | .hbm, ⟨74, _⟩ => ⟨S_, .i32⟩
  | .hbm, ⟨75, _⟩ => ⟨S400000, .i32⟩
  | .hbm, ⟨76, _⟩ => ⟨S400000, .i32⟩
  | .hbm, ⟨77, _⟩ => ⟨S400000, .i32⟩
  | .hbm, ⟨78, _⟩ => ⟨S400000x1, .i32⟩
  | .hbm, ⟨79, _⟩ => ⟨S400000x512, .f32⟩
  | .hbm, ⟨80, _⟩ => ⟨S400000x512, .f32⟩
  | .hbm, ⟨81, _⟩ => ⟨S400000x512, .f32⟩
  | .hbm, ⟨82, _⟩ => ⟨S_, .f32⟩
  | .hbm, ⟨83, _⟩ => ⟨S50000x512, .f32⟩
  | .hbm, ⟨84, _⟩ => ⟨S400000x1, .i32⟩
  | .hbm, ⟨85, _⟩ => ⟨S50000x512, .f32⟩
  | .hbm, ⟨86, _⟩ => ⟨S50000x8x64, .f32⟩
  | .hbm, ⟨87, _⟩ => ⟨S8x50000x64, .f32⟩
  | .hbm, ⟨88, _⟩ => ⟨S_, .f32⟩
  | .hbm, ⟨89, _⟩ => ⟨S8x50000x64, .f32⟩
  | .hbm, ⟨90, _⟩ => ⟨S8x50000x64, .f32⟩
  | .hbm, ⟨91, _⟩ => ⟨S8x50000x64, .f32⟩
  | .hbm, ⟨92, _⟩ => ⟨S400000x64, .f32⟩
  | .hbm, ⟨93, _⟩ => ⟨S400000x64, .f32⟩
  | .hbm, ⟨94, _⟩ => ⟨S400000x64, .f32⟩
  | .hbm, ⟨95, _⟩ => ⟨S400000x64, .f32⟩
  | .hbm, ⟨96, _⟩ => ⟨S8x50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S3x64x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | _, _ => ⟨S8x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_call1_v0 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  transposes_S8x50000x64_S50000x8x64_1_0_2 : S8x50000x64.Transposes [1, 0, 2] S50000x8x64
  shapeCasts_S50000x8x64_S50000x512 : S50000x8x64.ShapeCasts S50000x512
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  shapeCasts_S50000x512_S50000x8x64 : S50000x512.ShapeCasts S50000x8x64
  transposes_S50000x8x64_S8x50000x64_1_0_2 : S50000x8x64.Transposes [1, 0, 2] S8x50000x64
  bcast_S_S8x50000x64 : S_.BroadcastsInDim S8x50000x64 (![] : Fin 0 → Fin S8x50000x64.rank)
  shapeCasts_S8x50000x64_S400000x64 : S8x50000x64.ShapeCasts S400000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S400000x64_S8x50000x64 : S400000x64.ShapeCasts S8x50000x64
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S400000x64.size a
  hwx0_0 : ∀ i : grid0.Coords, EltTy.bits .f32 = 32 ∨ (Rect.block (s := S400000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S400000x64.size a
  hwx0_1 : ∀ i : grid0.Coords, EltTy.bits .f32 = 32 ∨ (Rect.block (s := S400000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S400000x64.size a
  hwx0_2 : ∀ i : grid0.Coords, EltTy.bits .f32 = 32 ∨ (Rect.block (s := S400000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S400000x64.size a
  hwx0_5 : ∀ i : grid0.Coords, EltTy.bits .f32 = 32 ∨ (Rect.block (s := S400000x64) S10000x64.size (cc0_transform_5 i) (hinb0_5 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v68) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v70) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v71) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x50000x64 : Shape := ⟨3, ![8, 50000, 64]⟩
abbrev S3x64x64 : Shape := ⟨3, ![3, 64, 64]⟩
abbrev S64 : Shape := ⟨1, ![64]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S1x64x64 : Shape := ⟨3, ![1, 64, 64]⟩
abbrev S64x64 : Shape := ⟨2, ![64, 64]⟩
abbrev S50000x8x64 : Shape := ⟨3, ![50000, 8, 64]⟩
abbrev S50000x512 : Shape := ⟨2, ![50000, 512]⟩
abbrev S400000x512 : Shape := ⟨2, ![400000, 512]⟩
abbrev S1x1x64 : Shape := ⟨3, ![1, 1, 64]⟩

abbrev nBuf : Space → Nat
  | .hbm => 107
  | .vmem => 0
  | .smem => 0
  | _ => 0

abbrev bufTy : (tb : Table) → Fin (tcTables nBuf tb) → BufTy
  | .hbm, ⟨0, _⟩ => ⟨S8x50000x64, .f32⟩
  | .hbm, ⟨1, _⟩ => ⟨S3x64x64, .f32⟩
  | .hbm, ⟨2, _⟩ => ⟨S64, .f32⟩
  | .hbm, ⟨3, _⟩ => ⟨S2x400000, .i32⟩
  | .hbm, ⟨4, _⟩ => ⟨S1x400000, .i32⟩
  | .hbm, ⟨5, _⟩ => ⟨S400000, .i32⟩
  | .hbm, ⟨6, _⟩ => ⟨S1x400000, .i32⟩
  | .hbm, ⟨7, _⟩ => ⟨S400000, .i32⟩
  | .hbm, ⟨8, _⟩ => ⟨S400000, .i1⟩
  | .hbm, ⟨9, _⟩ => ⟨S_, .f32⟩
  | .hbm, ⟨10, _⟩ => ⟨S_, .f32⟩
  | .hbm, ⟨11, _⟩ => ⟨S400000, .f32⟩
  | .hbm, ⟨12, _⟩ => ⟨S400000, .f32⟩
  | .hbm, ⟨13, _⟩ => ⟨S400000, .f32⟩
  | .hbm, ⟨14, _⟩ => ⟨S_, .f32⟩
  | .hbm, ⟨15, _⟩ => ⟨S50000, .f32⟩
  | .hbm, ⟨16, _⟩ => ⟨S400000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S400000, .i32⟩
  | .hbm, ⟨30, _⟩ => ⟨S400000, .i1⟩
  | .hbm, ⟨31, _⟩ => ⟨S_, .i32⟩
  | .hbm, ⟨32, _⟩ => ⟨S400000, .i32⟩
  | .hbm, ⟨33, _⟩ => ⟨S400000, .i32⟩
  | .hbm, ⟨34, _⟩ => ⟨S400000, .i32⟩
  | .hbm, ⟨35, _⟩ => ⟨S400000x1, .i32⟩
  | .hbm, ⟨36, _⟩ => ⟨S400000, .f32⟩
  | .hbm, ⟨37, _⟩ => ⟨S400000, .f32⟩
  | .hbm, ⟨38, _⟩ => ⟨S400000, .f32⟩
  | .hbm, ⟨39, _⟩ => ⟨S_, .i32⟩
  | .hbm, ⟨40, _⟩ => ⟨S400000, .i32⟩
  | .hbm, ⟨41, _⟩ => ⟨S400000, .i1⟩
  | .hbm, ⟨42, _⟩ => ⟨S_, .i32⟩
  | .hbm, ⟨43, _⟩ => ⟨S400000, .i32⟩
  | .hbm, ⟨44, _⟩ => ⟨S400000, .i32⟩
  | .hbm, ⟨45, _⟩ => ⟨S400000, .i32⟩
  | .hbm, ⟨46, _⟩ => ⟨S400000x1, .i32⟩
  | .hbm, ⟨47, _⟩ => ⟨S400000, .f32⟩
  | .hbm, ⟨48, _⟩ => ⟨S400000, .f32⟩
  | .hbm, ⟨49, _⟩ => ⟨S1x64x64, .f32⟩
  | .hbm, ⟨50, _⟩ => ⟨S64x64, .f32⟩
  | .hbm, ⟨51, _⟩ => ⟨S8x50000x64, .f32⟩
  | .hbm, ⟨52, _⟩ => ⟨S50000x8x64, .f32⟩
  | .hbm, ⟨53, _⟩ => ⟨S50000x512, .f32⟩
  | .hbm, ⟨54, _⟩ => ⟨S400000x1, .f32⟩
  | .hbm, ⟨55, _⟩ => ⟨S_, .i32⟩
  | .hbm, ⟨56, _⟩ => ⟨S400000, .i32⟩
  | .hbm, ⟨57, _⟩ => ⟨S400000, .i1⟩
  | .hbm, ⟨58, _⟩ => ⟨S_, .i32⟩
  | .hbm, ⟨59, _⟩ => ⟨S400000, .i32⟩
  | .hbm, ⟨60, _⟩ => ⟨S400000, .i32⟩
  | .hbm, ⟨61, _⟩ => ⟨S400000, .i32⟩
  | .hbm, ⟨62, _⟩ => ⟨S400000x1, .i32⟩
  | .hbm, ⟨63, _⟩ => ⟨S400000x512, .f32⟩
  | .hbm, ⟨64, _⟩ => ⟨S400000x512, .f32⟩
  | .hbm, ⟨65, _⟩ => ⟨S400000x512, .f32⟩
  | .hbm, ⟨66, _⟩ => ⟨S_, .f32⟩
  | .hbm, ⟨67, _⟩ => ⟨S50000x512, .f32⟩
  | .hbm, ⟨68, _⟩ => ⟨S400000x1, .i32⟩
  | .hbm, ⟨69, _⟩ => ⟨S50000x512, .f32⟩
  | .hbm, ⟨70, _⟩ => ⟨S50000x8x64, .f32⟩
  | .hbm, ⟨71, _⟩ => ⟨S8x50000x64, .f32⟩
  | .hbm, ⟨72, _⟩ => ⟨S1x64x64, .f32⟩
  | .hbm, ⟨73, _⟩ => ⟨S64x64, .f32⟩
  | .hbm, ⟨74, _⟩ => ⟨S8x50000x64, .f32⟩
  | .hbm, ⟨75, _⟩ => ⟨S8x50000x64, .f32⟩
  | .hbm, ⟨76, _⟩ => ⟨S50000x8x64, .f32⟩
  | .hbm, ⟨77, _⟩ => ⟨S50000x512, .f32⟩
  | .hbm, ⟨78, _⟩ => ⟨S400000x1, .f32⟩
  | .hbm, ⟨79, _⟩ => ⟨S_, .i32⟩
  | .hbm, ⟨80, _⟩ => ⟨S400000, .i32⟩
  | .hbm, ⟨81, _⟩ => ⟨S400000, .i1⟩
  | .hbm, ⟨82, _⟩ => ⟨S_, .i32⟩
  | .hbm, ⟨83, _⟩ => ⟨S400000, .i32⟩
  | .hbm, ⟨84, _⟩ => ⟨S400000, .i32⟩
  | .hbm, ⟨85, _⟩ => ⟨S400000, .i32⟩
  | .hbm, ⟨86, _⟩ => ⟨S400000x1, .i32⟩
  | .hbm, ⟨87, _⟩ => ⟨S400000x512, .f32⟩
  | .hbm, ⟨88, _⟩ => ⟨S400000x512, .f32⟩
  | .hbm, ⟨89, _⟩ => ⟨S400000x512, .f32⟩
  | .hbm, ⟨90, _⟩ => ⟨S_, .f32⟩
  | .hbm, ⟨91, _⟩ => ⟨S50000x512, .f32⟩
  | .hbm, ⟨92, _⟩ => ⟨S400000x1, .i32⟩
  | .hbm, ⟨93, _⟩ => ⟨S50000x512, .f32⟩
  | .hbm, ⟨94, _⟩ => ⟨S50000x8x64, .f32⟩
  | .hbm, ⟨95, _⟩ => ⟨S8x50000x64, .f32⟩
  | .hbm, ⟨96, _⟩ => ⟨S_, .f32⟩
  | .hbm, ⟨97, _⟩ => ⟨S8x50000x64, .f32⟩
  | .hbm, ⟨98, _⟩ => ⟨S8x50000x64, .f32⟩
  | .hbm, ⟨99, _⟩ => ⟨S8x50000x64, .f32⟩
  | .hbm, ⟨100, _⟩ => ⟨S1x64x64, .f32⟩
  | .hbm, ⟨101, _⟩ => ⟨S64x64, .f32⟩
  | .hbm, ⟨102, _⟩ => ⟨S8x50000x64, .f32⟩
  | .hbm, ⟨103, _⟩ => ⟨S8x50000x64, .f32⟩
  | .hbm, ⟨104, _⟩ => ⟨S1x1x64, .f32⟩
  | .hbm, ⟨105, _⟩ => ⟨S8x50000x64, .f32⟩
  | .hbm, ⟨106, _⟩ => ⟨S8x50000x64, .f32⟩
  | _, _ => ⟨S8x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  slices_S3x64x64_S1x64x64_0_0_0 : S3x64x64.Slices ![0, 0, 0] S1x64x64
  shapeCasts_S1x64x64_S64x64 : S1x64x64.ShapeCasts S64x64
  transposes_S8x50000x64_S50000x8x64_1_0_2 : S8x50000x64.Transposes [1, 0, 2] S50000x8x64
  shapeCasts_S50000x8x64_S50000x512 : S50000x8x64.ShapeCasts S50000x512
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  shapeCasts_S50000x512_S50000x8x64 : S50000x512.ShapeCasts S50000x8x64
  transposes_S50000x8x64_S8x50000x64_1_0_2 : S50000x8x64.Transposes [1, 0, 2] S8x50000x64
  slices_S3x64x64_S1x64x64_1_0_0 : S3x64x64.Slices ![1, 0, 0] S1x64x64
  bcast_S_S8x50000x64 : S_.BroadcastsInDim S8x50000x64 (![] : Fin 0 → Fin S8x50000x64.rank)
  slices_S3x64x64_S1x64x64_2_0_0 : S3x64x64.Slices ![2, 0, 0] S1x64x64
  bcast_S64_S1x1x64_2 : S64.BroadcastsInDim S1x1x64 (![2] : Fin 1 → Fin S1x1x64.rank)
  bcast_S1x1x64_S8x50000x64_0_1_2 : S1x1x64.BroadcastsInDim S8x50000x64 (![0, 1, 2] : Fin 3 → Fin S8x50000x64.rank)
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  dot_S8x50000x64_S64x64_S8x50000x64_2_0_01_1_n_n_wf : DotDims.WF S8x50000x64 S64x64 S8x50000x64 [2] [0] [0, 1] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def dot_S8x50000x64_S64x64_S8x50000x64_2_0_01_1_n_n : DotDims S8x50000x64 S64x64 S8x50000x64 where
  lhsContracting := [2]
  rhsContracting := [0]
  lhsNonContracting := [0, 1]
  rhsNonContracting := [1]
  lhsBatch := []
  rhsBatch := []
  wf := dot_S8x50000x64_S64x64_S8x50000x64_2_0_01_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

class Facts : Prop extends Facts₀ where

variable [Facts]
-- ==== Proof.RefValue.lean ====
/-
  The reference's result at an entry.

  The reference adds the three products X·W0, T1·W1, T2·W2 (T1 the propagated input, T2 = 2·(propagated T1) − X), each a
  contraction of the 64 input channels, in this order, and then the bias along the output channel.  Read at batch `b`,
  node `n`, output channel `o` it is
      ((Σₖ X[b,n,k]·W[0,k,o] + Σₖ T1[b,n,k]·W[1,k,o]) + Σₖ T2[b,n,k]·W[2,k,o]) + bias[o].
  The two propagated terms are left as the reference computes them: nothing here looks inside them.
-/
import proofs.«123251_j38216619000238_1_alg».proof.Proof.RefRead

noncomputable section

open Idealize.ShloMosaic Idealize.ShloMosaic.TcCoe Idealize.SL.Sem
open Idealize.ShloMosaic.ValueIdx

namespace Cert.ReferenceIdeal.Hand

open Cert.ReferenceIdeal Cert.ReferenceIdeal.Gen Cert.ReferenceIdeal.ReadP

/-- Slice `s` of the weight array, flattened to a 64×64 matrix, at row `k` and column `o`, for the three slices. -/
theorem w0_at (x1 : (⟨S3x64x64, .f32⟩ : BufTy).Contents (Elt Ideal)) (k o : Fin 64) :
    val_main_v32 (F := Ideal) x1 (ix2 k o) = x1 (ix3 (0 : Fin 3) k o) := by
  rw [val_main_v32_apply, val_main_v31_apply]
  refine congrArg x1 (funext fun a => Fin.ext ?_)
  have hk := k.isLt; have ho := o.isLt
  match a with
  | ⟨0, _⟩ => rfl
  | ⟨1, _⟩ => show (k.val * 64 + o.val) / 64 % 64 = k.val; omega
  | ⟨2, _⟩ => show (k.val * 64 + o.val) % 64 = o.val; omega

theorem w1_at (x1 : (⟨S3x64x64, .f32⟩ : BufTy).Contents (Elt Ideal)) (k o : Fin 64) :
    val_main_v52 (F := Ideal) x1 (ix2 k o) = x1 (ix3 (1 : Fin 3) k o) := by
  rw [val_main_v52_apply, val_main_v51_apply]
  refine congrArg x1 (funext fun a => Fin.ext ?_)
  have hk := k.isLt; have ho := o.isLt
  match a with
  | ⟨0, _⟩ => rfl
  | ⟨1, _⟩ => show (k.val * 64 + o.val) / 64 % 64 = k.val; omega
  | ⟨2, _⟩ => show (k.val * 64 + o.val) % 64 = o.val; omega

theorem w2_at (x1 : (⟨S3x64x64, .f32⟩ : BufTy).Contents (Elt Ideal)) (k o : Fin 64) :
    val_main_v76 (F := Ideal) x1 (ix2 k o) = x1 (ix3 (2 : Fin 3) k o) := by
  rw [val_main_v76_apply, val_main_v75_apply]
  refine congrArg x1 (funext fun a => Fin.ext ?_)
  have hk := k.isLt; have ho := o.isLt
  match a with
  | ⟨0, _⟩ => rfl
  | ⟨1, _⟩ => show (k.val * 64 + o.val) / 64 % 64 = k.val; omega
  | ⟨2, _⟩ => show (k.val * 64 + o.val) % 64 = o.val; omega

/-- The bias broadcast over batch and node, at an entry. -/
theorem bias_at (x2 : (⟨S64, .f32⟩ : BufTy).Contents (Elt Ideal)) (b : Fin 8) (n : Fin 50000) (o : Fin 64) :
    val_main_v80 (F := Ideal) x2 (ix3 b n o) = x2 (ix1 o) := by
  rw [val_main_v80_apply, val_main_v79_apply]
  refine congrArg x2 (funext fun a => Fin.ext ?_)
  match a with
  | ⟨0, _⟩ => rfl

/-- The reference's result at batch `b`, node `n`, output channel `o`. -/
theorem result_at (x0 : (⟨S8x50000x64, .f32⟩ : BufTy).Contents (Elt Ideal)) (x1 : (⟨S3x64x64, .f32⟩ : BufTy).Contents (Elt Ideal))
    (x2 : (⟨S64, .f32⟩ : BufTy).Contents (Elt Ideal)) (x3 : (⟨S2x400000, .i32⟩ : BufTy).Contents (Elt Ideal))
    (b : Fin 8) (n : Fin 50000) (o : Fin 64) :
    val_main_v81 (F := Ideal) x0 x1 x2 x3 (ix3 b n o)
      = ((∑ k : Fin 64, x0 (ix3 b n k) * x1 (ix3 (0 : Fin 3) k o))
          + (∑ k : Fin 64, val_main_v50 (F := Ideal) x0 x3 (ix3 b n k) * x1 (ix3 (1 : Fin 3) k o))
          + (∑ k : Fin 64, val_main_v74 (F := Ideal) x0 x3 (ix3 b n k) * x1 (ix3 (2 : Fin 3) k o))) + x2 (ix1 o) := by
  have el33 : ∀ k : Fin 64, lidx_main_v33 (ix3 b n o) k = ix3 b n k := fun k => funext fun a => Fin.ext (by
    match a with | ⟨0, _⟩ => rfl | ⟨1, _⟩ => rfl | ⟨2, _⟩ => rfl)
  have er33 : ∀ k : Fin 64, ridx_main_v33 (ix3 b n o) k = ix2 k o := fun k => funext fun a => Fin.ext (by
    match a with | ⟨0, _⟩ => rfl | ⟨1, _⟩ => rfl)
  have el53 : ∀ k : Fin 64, lidx_main_v53 (ix3 b n o) k = ix3 b n k := fun k => funext fun a => Fin.ext (by
    match a with | ⟨0, _⟩ => rfl | ⟨1, _⟩ => rfl | ⟨2, _⟩ => rfl)
  have er53 : ∀ k : Fin 64, ridx_main_v53 (ix3 b n o) k = ix2 k o := fun k => funext fun a => Fin.ext (by
    match a with | ⟨0, _⟩ => rfl | ⟨1, _⟩ => rfl)
  have el77 : ∀ k : Fin 64, lidx_main_v77 (ix3 b n o) k = ix3 b n k := fun k => funext fun a => Fin.ext (by
    match a with | ⟨0, _⟩ => rfl | ⟨1, _⟩ => rfl | ⟨2, _⟩ => rfl)
  have er77 : ∀ k : Fin 64, ridx_main_v77 (ix3 b n o) k = ix2 k o := fun k => funext fun a => Fin.ext (by
    match a with | ⟨0, _⟩ => rfl | ⟨1, _⟩ => rfl)
  rw [val_main_v81_apply, val_main_v78_apply, val_main_v54_apply, val_main_v33_apply, val_main_v53_apply, val_main_v77_apply, bias_at]
  simp only [el33, er33, el53, er53, el77, er77, w0_at, w1_at, w2_at]
  rfl

end Cert.ReferenceIdeal.Hand

end
-- ==== Proof.Combine.lean ====
/-
  The Chebyshev combination as one function of its five arrays, and its two layouts.

  On the flattened rows (400000 = 8·50000 of them, 64 wide) the combination of three terms T0, T1, T2 with the weight
  slices W[0], W[1], W[2] and the bias is, at row `r` and output channel `o`,
      ((Σₖ T0[r,k]·W[0,k,o] + Σₖ T1[r,k]·W[1,k,o]) + Σₖ T2[r,k]·W[2,k,o]) + bias[o].
  Row `r = b·50000 + n` of a flattened [8,50000,64] array is its row (b, n): flattening the three terms, combining, and
  un-flattening the result is the same formula read at (b, n, o).
-/
import Idealize.ShloMosaic.Lib.Pipeline.Value
import Idealize.ShloMosaic.Lib.ValueIdx
import Idealize.ShloMosaic.PureOps.Ideal

noncomputable section

open Idealize.ShloMosaic
open Idealize.ShloMosaic.ValueIdx

namespace Cert.Combine

abbrev Rows : Shape := ⟨2, ![400000, 64]⟩
abbrev Cube : Shape := ⟨3, ![8, 50000, 64]⟩
abbrev Wts : Shape := ⟨3, ![3, 64, 64]⟩
abbrev Chan : Shape := ⟨1, ![64]⟩

/-- The combination on flattened rows. -/
def comb (t0 t1 t2 : FVec Ideal Rows .f32) (w : FVec Ideal Wts .f32) (bv : FVec Ideal Chan .f32) : FVec Ideal Rows .f32 :=
  fun j =>
    ((∑ k : Fin 64, t0 (ix2 (j 0) k) * w (ix3 (0 : Fin 3) k (j 1))) + (∑ k : Fin 64, t1 (ix2 (j 0) k) * w (ix3 (1 : Fin 3) k (j 1)))
      + (∑ k : Fin 64, t2 (ix2 (j 0) k) * w (ix3 (2 : Fin 3) k (j 1)))) + bv (ix1 (j 1))

/-- Row (b, n) of the cube is row b·50000 + n of the flattened rows. -/
abbrev flatRow (b : Fin 8) (n : Fin 50000) : Fin 400000 := ⟨b.val * 50000 + n.val, by have := b.isLt; have := n.isLt; omega⟩

/-- A flattened cube read at row b·50000 + n. -/
theorem flatten_at {α : Type} (x : Cube.Idx → α) (h : Cube.ShapeCasts Rows) (b : Fin 8) (n : Fin 50000) (k : Fin 64) :
    shapeCast Rows x h (ix2 (flatRow b n) k) = x (ix3 b n k) :=
  shapeCast_apply x h _ _ (by
    rw [Shape.rowMajor_val_three, Shape.rowMajor_val_two]
    rfl)

/-- Rows un-flattened to the cube, read at (b, n, o). -/
theorem unflatten_at {α : Type} (y : Rows.Idx → α) (h : Rows.ShapeCasts Cube) (b : Fin 8) (n : Fin 50000) (o : Fin 64) :
    shapeCast Cube y h (ix3 b n o) = y (ix2 (flatRow b n) o) :=
  shapeCast_apply y h _ _ (by
    rw [Shape.rowMajor_val_three, Shape.rowMajor_val_two]
    rfl)

/-- Flatten the three terms, combine, un-flatten: the combination read at (b, n, o) of the cube. -/
theorem comb_cube_at (x t1 t2 : FVec Ideal Cube .f32) (w : FVec Ideal Wts .f32) (bv : FVec Ideal Chan .f32)
    (h : Cube.ShapeCasts Rows) (h' : Rows.ShapeCasts Cube) (b : Fin 8) (n : Fin 50000) (o : Fin 64) :
    shapeCast Cube (comb (shapeCast Rows x h) (shapeCast Rows t1 h) (shapeCast Rows t2 h) w bv) h' (ix3 b n o)
      = ((∑ k : Fin 64, x (ix3 b n k) * w (ix3 (0 : Fin 3) k o)) + (∑ k : Fin 64, t1 (ix3 b n k) * w (ix3 (1 : Fin 3) k o))
          + (∑ k : Fin 64, t2 (ix3 b n k) * w (ix3 (2 : Fin 3) k o))) + bv (ix1 o) := by
  rw [unflatten_at]
  unfold comb
  simp only [flatten_at]

end Cert.Combine

end
-- ==== Proof.Blocks.lean ====
/-
  Where each window's block sits in its array.

  The combining kernel runs over 40 grid points.  At point `t` the three row windows (the flattened X, T1, T2) and the
  result window hold rows `10000·t … 10000·t + 9999` of their [400000, 64] arrays; the weight window holds the whole
  [3, 64, 64] weight array and the bias window the whole bias row at every point.
-/
import proofs.«123251_j38216619000238_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-- The printed index maps, decided over the 40 grid points: the three row windows and the result window are on
    block row `t`, column block 0; the weights and the bias are always at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

theorem rowIdx_lt (t : Fin cfg0.N) (p : Fin 10000) : t.val * 10000 + p.val < 400000 := by
  have h : t.val < 40 := lt_of_lt_of_eq t.isLt N_0
  have := p.isLt; omega

/-- The row of the flattened arrays that row `p` of the block at point `t` is. -/
abbrev rowOf (t : Fin cfg0.N) (p : Fin 10000) : Fin 400000 := ⟨t.val * 10000 + p.val, rowIdx_lt t p⟩

/-- The first row window's block at point `t` is rows `10000·t …` of the flattened X. -/
theorem row0_at (c : Dev nD) (t : Fin cfg0.N) (p : Fin 10000) (k : Fin 64) :
    (iblk m c 0 t : Vec Ideal S10000x64 .f32) (ix2 p k) = (V m c main_v68 : S400000x64.Idx → EReal) (ix2 (rowOf t p) k) := by
  obtain ⟨e00, e01, -⟩ := idx_facts t
  unfold iblk
  rw [View.read_apply]
  show V m c main_v68 _ = V m c main_v68 _
  congr 1
  funext a; apply Fin.ext
  match a with
  | ⟨0, _⟩ => show win0_0.index t (0 : Fin 2) * 10000 + 1 * p.val = t.val * 10000 + p.val; rw [e00]; omega
  | ⟨1, _⟩ => show win0_0.index t (1 : Fin 2) * 64 + 1 * k.val = k.val; rw [e01]; omega

/-- The second row window's block: rows of the flattened T1. -/
theorem row1_at (c : Dev nD) (t : Fin cfg0.N) (p : Fin 10000) (k : Fin 64) :
    (iblk m c 1 t : Vec Ideal S10000x64 .f32) (ix2 p k) = (V m c main_v69 : S400000x64.Idx → EReal) (ix2 (rowOf t p) k) := by
  obtain ⟨-, -, e10, e11, -⟩ := idx_facts t
  unfold iblk
  rw [View.read_apply]
  show V m c main_v69 _ = V m c main_v69 _
  congr 1
  funext a; apply Fin.ext
  match a with
  | ⟨0, _⟩ => show win0_1.index t (0 : Fin 2) * 10000 + 1 * p.val = t.val * 10000 + p.val; rw [e10]; omega
  | ⟨1, _⟩ => show win0_1.index t (1 : Fin 2) * 64 + 1 * k.val = k.val; rw [e11]; omega

/-- The third row window's block: rows of the flattened T2. -/
theorem row2_at (c : Dev nD) (t : Fin cfg0.N) (p : Fin 10000) (k : Fin 64) :
    (iblk m c 2 t : Vec Ideal S10000x64 .f32) (ix2 p k) = (V m c main_v70 : S400000x64.Idx → EReal) (ix2 (rowOf t p) k) := by
  obtain ⟨-, -, -, -, e20, e21, -⟩ := idx_facts t
  unfold iblk
  rw [View.read_apply]
  show V m c main_v70 _ = V m c main_v70 _
  congr 1
  funext a; apply Fin.ext
  match a with
  | ⟨0, _⟩ => show win0_2.index t (0 : Fin 2) * 10000 + 1 * p.val = t.val * 10000 + p.val; rw [e20]; omega
  | ⟨1, _⟩ => show win0_2.index t (1 : Fin 2) * 64 + 1 * k.val = k.val; rw [e21]; omega

/-- The weight window holds the whole weight array at every point; the body's three loads read its three slices. -/
theorem w0_at (c : Dev nD) (t : Fin cfg0.N) (k q : Fin 64) :
    View.ld (iblk m c 3 t : Vec Ideal S3x64x64 .f32) r0_1 (ix3 (0 : Fin 1) k q) = (V m c main_arg1 : S3x64x64.Idx → EReal) (ix3 (0 : Fin 3) k q) := by
  obtain ⟨-, -, -, -, -, -, e30, e31, e32, -⟩ := idx_facts t
  unfold iblk
  show V m c main_arg1 _ = V m c main_arg1 _
  congr 1
  funext a; apply Fin.ext
  match a with
  | ⟨0, _⟩ => show win0_3.index t (0 : Fin 3) * 3 + 1 * (0 + 1 * 0) = 0; rw [e30]
  | ⟨1, _⟩ => show win0_3.index t (1 : Fin 3) * 64 + 1 * (0 + 1 * k.val) = k.val; rw [e31]; omega
  | ⟨2, _⟩ => show win0_3.index t (2 : Fin 3) * 64 + 1 * (0 + 1 * q.val) = q.val; rw [e32]; omega

theorem w1_at (c : Dev nD) (t : Fin cfg0.N) (k q : Fin 64) :
    View.ld (iblk m c 3 t : Vec Ideal S3x64x64 .f32) r0_2 (ix3 (0 : Fin 1) k q) = (V m c main_arg1 : S3x64x64.Idx → EReal) (ix3 (1 : Fin 3) k q) := by
  obtain ⟨-, -, -, -, -, -, e30, e31, e32, -⟩ := idx_facts t
  unfold iblk
  show V m c main_arg1 _ = V m c main_arg1 _
  congr 1
  funext a; apply Fin.ext
  match a with
  | ⟨0, _⟩ => show win0_3.index t (0 : Fin 3) * 3 + 1 * (1 + 1 * 0) = 1; rw [e30]
  | ⟨1, _⟩ => show win0_3.index t (1 : Fin 3) * 64 + 1 * (0 + 1 * k.val) = k.val; rw [e31]; omega
  | ⟨2, _⟩ => show win0_3.index t (2 : Fin 3) * 64 + 1 * (0 + 1 * q.val) = q.val; rw [e32]; omega

theorem w2_at (c : Dev nD) (t : Fin cfg0.N) (k q : Fin 64) :
    View.ld (iblk m c 3 t : Vec Ideal S3x64x64 .f32) r0_3 (ix3 (0 : Fin 1) k q) = (V m c main_arg1 : S3x64x64.Idx → EReal) (ix3 (2 : Fin 3) k q) := by
  obtain ⟨-, -, -, -, -, -, e30, e31, e32, -⟩ := idx_facts t
  unfold iblk
  show V m c main_arg1 _ = V m c main_arg1 _
  congr 1
  funext a; apply Fin.ext
  match a with
  | ⟨0, _⟩ => show win0_3.index t (0 : Fin 3) * 3 + 1 * (2 + 1 * 0) = 2; rw [e30]
  | ⟨1, _⟩ => show win0_3.index t (1 : Fin 3) * 64 + 1 * (0 + 1 * k.val) = k.val; rw [e31]; omega
  | ⟨2, _⟩ => show win0_3.index t (2 : Fin 3) * 64 + 1 * (0 + 1 * q.val) = q.val; rw [e32]; omega

/-- The bias window holds the whole bias row at every point. -/
theorem bias_at (c : Dev nD) (t : Fin cfg0.N) (q : Fin 64) :
    (iblk m c 4 t : Vec Ideal S64 .f32) (ix1 q) = (V m c main_arg2 : S64.Idx → EReal) (ix1 q) := by
  obtain ⟨-, -, -, -, -, -, -, -, -, e40, -⟩ := idx_facts t
  unfold iblk
  rw [View.read_apply]
  show V m c main_arg2 _ = V m c main_arg2 _
  congr 1
  funext a; apply Fin.ext
  match a with
  | ⟨0, _⟩ => show win0_4.index t (0 : Fin 1) * 64 + 1 * q.val = q.val; rw [e40]; omega

/-- Row `p`, column `q` of the result block at point `t` is row `10000·t + p`, column `q` of the result array. -/
theorem out_emb (t : Fin cfg0.N) (p : Fin 10000) (q : Fin 64) :
    ((cfg0.win 5).blk t).view.emb (ix2 p q) = (ix2 (rowOf t p) q : S400000x64.Idx) := by
  obtain ⟨-, -, -, -, -, -, -, -, -, -, e50, e51⟩ := idx_facts t
  funext a; apply Fin.ext
  match a with
  | ⟨0, _⟩ => show win0_5.index t (0 : Fin 2) * 10000 + 1 * p.val = t.val * 10000 + p.val; rw [e50]; omega
  | ⟨1, _⟩ => show win0_5.index t (1 : Fin 2) * 64 + 1 * q.val = q.val; rw [e51]; omega

end Cert.KernelIdeal.Hand

end
-- ==== Proof.Body.lean ====
/-
  The arithmetic of one grid point of the combining kernel, read at an entry.

  The body loads a block of 10000 rows of each of the three Chebyshev terms T0, T1, T2 (each row 64 wide), the
  three 64×64 weight matrices and the bias row, and stores
      ((T0·W0 + T1·W1) + T2·W2) + bias
  with every product accumulated from zero.  Over the extended reals a product into a zero accumulator is the plain sum
  over the contracted axis, so the stored block at row `p`, column `q` is
      ((Σₖ T0[p,k]·W0[k,q] + Σₖ T1[p,k]·W1[k,q]) + Σₖ T2[p,k]·W2[k,q]) + bias[q],
  the three sums added in exactly this order.
-/
import proofs.«123251_j38216619000238_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Body

open Cert.KernelIdeal Cert.KernelIdeal.Gen

/-! ## The operand indices of the block product -/

/-- The left operand's row is the output's row. -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- The left operand's column is the contracted coordinate. -/
theorem lhs_contr (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- The right operand's row is the contracted coordinate. -/
theorem rhs_contr (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- The right operand's column is the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of rows times a 64×64 matrix, accumulated from zero, at row `p` and column `q`: the sum over the 64 shared
    coordinates. -/
theorem matmul_at (a : FVec Ideal S10000x64 .f32) (w : FVec Ideal S64x64 .f32) (p : Fin 10000) (q : Fin 64) :
    matmul dot_S10000x64_S64x64_S10000x64_1_0_0_1_n_n none a w (constant S10000x64 .f32 0x00000000#32) (ix2 p q)
      = ∑ k : Fin 64, a (ix2 p k) * w (ix2 k q) := by
  show FloatOps.matmul dot_S10000x64_S64x64_S10000x64_1_0_0_1_n_n none a w (constant S10000x64 .f32 0x00000000#32) (ix2 p q) = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_contr _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_contr _ _).trans hk
    | ⟨1, _⟩ => exact rhs_col _ _)
  rw [el, er]

/-! ## The stored block at an entry -/

/-- The stored block at row `p`, column `q`, from the loaded blocks `t0 t1 t2`, the three loaded weight slices (each still
    carrying its leading unit axis) and the loaded bias row. -/
theorem pay_at (t0 t1 t2 : Vec Ideal S10000x64 .f32) (w0 w1 w2 : Vec Ideal S1x64x64 .f32) (bv : Vec Ideal S64 .f32)
    (p : Fin 10000) (q : Fin 64) :
    k0_pay1 (F := Ideal) t0 w0 t1 w1 t2 w2 bv (ix2 p q)
      = ((∑ k : Fin 64, t0 (ix2 p k) * w0 (ix3 (0 : Fin 1) k q)) + (∑ k : Fin 64, t1 (ix2 p k) * w1 (ix3 (0 : Fin 1) k q))
          + (∑ k : Fin 64, t2 (ix2 p k) * w2 (ix3 (0 : Fin 1) k q))) + bv (ix1 q) := by
  unfold k0_pay1
  simp only [addf_apply, matmul_at, shapeCast_self, shapeCast_1ab_ab_apply, broadcastTo_1b_ab_apply, shapeCast_a_1a_apply]

end Cert.KernelIdeal.Body

end
-- ==== Proof.KernelValue.lean ====
/-
  What the combining kernel leaves in its result array, and what the program returns.

  At point `t` the body stores, at row `p` and column `q` of the result block,
      ((Σₖ T0[r,k]·W[0,k,q] + Σₖ T1[r,k]·W[1,k,q]) + Σₖ T2[r,k]·W[2,k,q]) + bias[q],     r = 10000·t + p,
  of the flattened arrays as the region finds them: block `t` of the one whole-array combination.  The 40 blocks tile
  the result array, so it ends holding that combination; the one host line after the region un-flattens it.
-/
import proofs.«123251_j38216619000238_1_alg».proof.Proof.Blocks
import proofs.«123251_j38216619000238_1_alg».proof.Proof.Body
import proofs.«123251_j38216619000238_1_alg».proof.Proof.Combine
import Idealize.ShloMosaic.Lib.StableHlo.Run

noncomputable section

open Idealize.ShloMosaic Idealize.ShloMosaic.TcCoe Idealize.SL.Sem
open Idealize.ShloMosaic.ValueIdx
open Idealize.ShloMosaic.Pipeline (Dat)

namespace Cert.KernelIdeal.Hand

open Cert.KernelIdeal Cert.KernelIdeal.Gen Cert.Combine

variable (m : (ℓ : Loc nD τ sig) → Buf (Elt Ideal) ℓ) (ρ : Dev nD → PrngReg)

/-- What point `t` writes back is block `t` of the combination of the five arrays as the region finds them. -/
theorem flushed_eq (c : Dev nD) (t : Fin cfg0.N) :
    (dats m 0 c).flushed 5 t = ((cfg0.win 5).blk t).view.read (Elt Ideal)
      (comb (V m c main_v68) (V m c main_v69) (V m c main_v70) (V m c main_arg1) (V m c main_arg2)) := by
  show (cfg0.win 5).cut (grid0.coords t) ((dats m 0 c).after 5 t) = _
  rw [after0_5]
  unfold out0_5
  rw [View.canon_unit_zero hz2]
  simp only [View.ld_unit_zero (S := S10000x64) hz2, View.ld_unit_zero (S := S64) hz1]
  refine funext fun (j : S10000x64.Idx) => ?_
  obtain ⟨p, q, rfl⟩ : ∃ (p : Fin 10000) (q : Fin 64), j = ix2 p q := ⟨j 0, j 1, eq_ix2 j⟩
  show k0_pay1 (iblk m c 0 t) (View.ld (iblk m c 3 t) r0_1) (iblk m c 1 t) (View.ld (iblk m c 3 t) r0_2) (iblk m c 2 t)
        (View.ld (iblk m c 3 t) r0_3) (iblk m c 4 t) (ix2 p q)
      = comb (V m c main_v68) (V m c main_v69) (V m c main_v70) (V m c main_arg1) (V m c main_arg2) (((cfg0.win 5).blk t).view.emb (ix2 p q))
  rw [Body.pay_at, out_emb]
  unfold comb
  simp only [row0_at, row1_at, row2_at, w0_at, w1_at, w2_at, bias_at]

/-- Every row of the result array is in the block of the point its row lies in: the 40 blocks of 10000 rows tile it. -/
theorem cover (i : S400000x64.Idx) : ∃ t : Fin cfg0.N, (cfg0.win 5).flush t = true ∧ i ∈ ((cfg0.win 5).blk t).view.set := by
  have h0 : (i 0).val < 400000 := (i 0).isLt
  have h1 : (i 1).val < 64 := (i 1).isLt
  have hN : cfg0.N = 40 := N_0
  let t : Fin cfg0.N := ⟨(i 0).val / 10000, by rw [hN]; omega⟩
  obtain ⟨-, -, -, -, -, -, -, -, -, -, e50, e51⟩ := idx_facts t
  have ht : t.val = (i 0).val / 10000 := rfl
  refine ⟨t, flush0_5 t, ?_⟩
  show i ∈ ((View.whole main_v71).slice (win0_5.rect t)).set
  rw [View.set_slice_whole, Rect.mem_set_unit]
  intro a
  match a with
  | ⟨0, _⟩ => show win0_5.index t (0 : Fin 2) * 10000 ≤ (i 0).val ∧ (i 0).val < win0_5.index t (0 : Fin 2) * 10000 + 10000; rw [e50, ht]; omega
  | ⟨1, _⟩ => show win0_5.index t (1 : Fin 2) * 64 ≤ (i 1).val ∧ (i 1).val < win0_5.index t (1 : Fin 2) * 64 + 64; rw [e51]; omega

/-- The result array after the region: the combination of the five arrays as the region finds them. -/
theorem final (c : Dev nD) : (dats m 0 c).arrAt 5 cfg0.N
    = comb (V m c main_v68) (V m c main_v69) (V m c main_v70) (V m c main_arg1) (V m c main_arg2) :=
  (dats m 0 c).arrAt_eq_of_cover 5 _ (fun t _ => flushed_eq m c t) cover

/-- What the program returns: the result array un-flattened to [8, 50000, 64] by the one host line after the region. -/
theorem returned (c : Dev nD) :
    Pipeline.afterTail₀ cfgs (dats m) 0 (V0 m) [hostOps1] c main_v72
      = shapeCast S8x50000x64 (comb (V m c main_v68) (V m c main_v69) (V m c main_v70) (V m c main_arg1) (V m c main_arg2))
          shapeCasts_S400000x64_S8x50000x64 := by
  unfold Pipeline.afterTail₀
  show StableHlo.after hostOps1 _ (Proc.devRef .tc main_v72) = _
  after_results
  exact congrArg (fun X : S400000x64.Idx → EReal => shapeCast S8x50000x64 X shapeCasts_S400000x64_S8x50000x64)
    ((Pipeline.withArrays_arr spec0 launch0.win.arr_inj c (V0 m c) (fun w => (dats m 0 c).arrAt w cfg0.N) 5).trans (final m c))

/-- The run, read: the returned array at the un-flattened combination, the four arguments unchanged. -/
theorem run : θ_run defs (onTc (τ := τ) (main (F := Ideal))) ⟨m, fun _ => 0, ρ⟩ fun r => ∀ c : Dev nD,
      r.2.mem ((c.tc : Thread nD τ).loc main_v72)
        = shapeCast S8x50000x64 (comb (V m c main_v68) (V m c main_v69) (V m c main_v70) (V m c main_arg1) (V m c main_arg2))
            shapeCasts_S400000x64_S8x50000x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v72 (Pipeline.mem_restRefs_of main_v72 (by decide) (by decide))).trans (returned m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (W_main_arg3 m (dats m) c)⟩)
    (run_main m ρ)

end Cert.KernelIdeal.Hand

end
-- ==== Proof.Bridge.lean ====
/-
  The kernel's host lines before the region compute the same three Chebyshev terms as the reference.

  Both programs build the normalised Laplacian weights from the edge list in the same way and propagate with the same
  gather, scale and scatter-add; the kernel then flattens X, T1 = prop(X) and T2 = 2·prop(T1) − X to [400000, 64] rows
  for its combining kernel.  The two chains of host operations are the same operations in the same order, so the
  kernel's three flattened operands are the flattenings of the reference's own X, T1 and T2.  Stated for any float
  family: nothing here depends on what a float is.
-/
import proofs.«123251_j38216619000238_1_alg».proof.Proof.Gen.KernelIdeal.Frame
import proofs.«123251_j38216619000238_1_alg».proof.Proof.RefRead
import Idealize.ShloMosaic.Lib.StableHlo.Run

noncomputable section

open Idealize.ShloMosaic Idealize.ShloMosaic.TcCoe Idealize.SL.Sem Idealize.ShloMosaic.StableHlo

namespace Cert.Bridge

open Cert.KernelIdeal Cert.KernelIdeal.Gen

variable {F : FTy → Type} [FloatOps F]
variable (m : (ℓ : Loc nD τ sig) → Buf (Elt F) ℓ)

set_option maxRecDepth 8192 in
set_option maxHeartbeats 40000000 in
/-- The first operand of the combining kernel: X flattened. -/
theorem term0 (c : Dev nD) :
    (V m c main_v68 : S400000x64.Idx → Elt F .f32)
      = shapeCast S400000x64 (m ((c : Thread nD τ).loc main_arg0) : S8x50000x64.Idx → Elt F .f32) shapeCasts_S8x50000x64_S400000x64 := by
  dsimp only [V, V0]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 40000000 in
/-- The second operand: the reference's T1 = prop(X), flattened. -/
theorem term1 (c : Dev nD) :
    (V m c main_v69 : S400000x64.Idx → Elt F .f32)
      = shapeCast S400000x64 (Cert.ReferenceIdeal.ReadP.val_main_v50 (F := F) (m ((c : Thread nD τ).loc main_arg0)) (m ((c : Thread nD τ).loc main_arg3))) shapeCasts_S8x50000x64_S400000x64 := by
  dsimp only [V, V0]
  simp only [hostOps0, hostOps0_1, hostOps0_2, hostOps0_3, hostOps0_4, List.flatten_cons, List.flatten_nil, List.append_nil, List.cons_append, List.nil_append]
  after_results_simp
  rfl

set_option maxRecDepth 8192 in
set_option maxHeartbeats 40000000 in
/-- The third operand: the reference's T2 = 2·prop(T1) − X, flattened. -/
theorem term2 (c : Dev nD) :
    (V m c main_v70 : S400000x64.Idx → Elt F .f32)
      = shapeCast S400000x64 (Cert.ReferenceIdeal.ReadP.val_main_v74 (F := F) (m ((c : Thread nD τ).loc main_arg0)) (m ((c : Thread nD τ).loc main_arg3))) shapeCasts_S8x50000x64_S400000x64 := by
  dsimp only [V, V0]
  simp only [hostOps0, hostOps0_1, hostOps0_2, hostOps0_3, hostOps0_4, List.flatten_cons, List.flatten_nil, List.append_nil, List.cons_append, List.nil_append]
  after_results_simp
  rfl

end Cert.Bridge

end
-- ==== Proof.lean ====
/-
  Chebyshev graph convolution: a kernel that combines three Chebyshev terms, against its jnp reference.

  Both programs compute, on the host, T0 = X, T1 = L·X and T2 = 2·L·T1 − X, with L the symmetrically normalised
  Laplacian weights of the edge list applied by gather, scale and scatter-add, and return
      ((T0·W[0] + T1·W[1]) + T2·W[2]) + bias.
  The reference forms the three products with `dot_general` on [8, 50000, 64] arrays; the kernel flattens the three terms
  to [400000, 64] rows, runs one pipelined kernel over 40 blocks of 10000 rows that forms the three products into zero
  accumulators and adds them and the bias in the same order, and un-flattens the result.  Over the extended reals each
  product is the plain sum over the 64 input channels, and the two programs add the same three sums and the bias in the
  same order, so the results agree entry by entry with no algebraic law needed and no use of finiteness.

  Modules: `Body` (the kernel's stored block at an entry), `Blocks` (where each window's block sits), `Combine` (the
  combination as one function, flattened and not), `KernelValue` (the kernel's result array and what the program
  returns), `Bridge` (the kernel's host prefix computes the reference's own T1 and T2), `RefValue` (the reference's
  result at an entry).
-/
import proofs.«123251_j38216619000238_1_alg».proof.Defs
import proofs.«123251_j38216619000238_1_alg».proof.Proof.Gen.Kernel
import proofs.«123251_j38216619000238_1_alg».proof.Proof.Gen.Kernel.Skeleton
import proofs.«123251_j38216619000238_1_alg».proof.Proof.Gen.Kernel.Launch
import proofs.«123251_j38216619000238_1_alg».proof.Proof.Gen.Kernel.Points
import proofs.«123251_j38216619000238_1_alg».proof.Proof.Gen.Kernel.Frame
import proofs.«123251_j38216619000238_1_alg».proof.Proof.Gen.KernelIdeal
import proofs.«123251_j38216619000238_1_alg».proof.Proof.Gen.KernelIdeal.Skeleton
import proofs.«123251_j38216619000238_1_alg».proof.Proof.Gen.KernelIdeal.Launch
import proofs.«123251_j38216619000238_1_alg».proof.Proof.Gen.KernelIdeal.Points
import proofs.«123251_j38216619000238_1_alg».proof.Proof.Gen.KernelIdeal.Frame
import proofs.«123251_j38216619000238_1_alg».proof.Proof.Gen.ReferenceIdeal
import proofs.«123251_j38216619000238_1_alg».proof.Proof.Gen.Pre_finite_inputs
import proofs.«123251_j38216619000238_1_alg».proof.Proof.RefRun
import proofs.«123251_j38216619000238_1_alg».proof.Proof.RefRead
import proofs.«123251_j38216619000238_1_alg».proof.Proof.RefValue
import proofs.«123251_j38216619000238_1_alg».proof.Proof.Combine
import proofs.«123251_j38216619000238_1_alg».proof.Proof.KernelValue
import proofs.«123251_j38216619000238_1_alg».proof.Proof.Bridge
import Idealize.ShloMosaic.Adequacy
import Idealize.ShloMosaic.Init

noncomputable section

namespace Cert.Proof

open Idealize.ShloMosaic Idealize.ShloMosaic.TcCoe Idealize.SL.Sem
open Idealize.ShloMosaic.ValueIdx

/-- The kernel's returned array is the reference's result, as functions of the kernel's own argument arrays: un-flatten
    the combination of the flattened X, T1, T2, read it at (b, n, o), and meet the reference's sums there. -/
theorem returned_eq (m : (ℓ : Loc Cert.KernelIdeal.nD Cert.KernelIdeal.τ Cert.KernelIdeal.sig) → Buf (Elt Ideal) ℓ) (c : Dev Cert.KernelIdeal.nD) :
    shapeCast Cert.KernelIdeal.S8x50000x64
        (Cert.Combine.comb (Cert.KernelIdeal.Gen.V m c Cert.KernelIdeal.main_v68) (Cert.KernelIdeal.Gen.V m c Cert.KernelIdeal.main_v69)
          (Cert.KernelIdeal.Gen.V m c Cert.KernelIdeal.main_v70) (Cert.KernelIdeal.Gen.V m c Cert.KernelIdeal.main_arg1) (Cert.KernelIdeal.Gen.V m c Cert.KernelIdeal.main_arg2))
        Cert.KernelIdeal.Facts₀.shapeCasts_S400000x64_S8x50000x64
      = Cert.ReferenceIdeal.ReadP.val_main_v81 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.Bridge.term0 m c, Cert.Bridge.term1 m c, Cert.Bridge.term2 m c, Cert.KernelIdeal.Gen.V_main_arg1 m c, Cert.KernelIdeal.Gen.V_main_arg2 m c]
  funext i
  obtain ⟨b, n, o, rfl⟩ : ∃ (b : Fin 8) (n : Fin 50000) (o : Fin 64), i = ix3 b n o := ⟨i 0, i 1, i 2, eq_ix3 i⟩
  rw [Cert.ReferenceIdeal.Hand.result_at]
  exact Cert.Combine.comb_cube_at _ _ _ _ _ _ _ b n o

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the reference's result of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v81 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (returned_eq m c), (h c).2⟩)
      (Cert.KernelIdeal.Hand.run m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v81_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
